-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S4096x1 : Shape := ⟨2, ![4096, 1]⟩
abbrev S4096x4095 : Shape := ⟨2, ![4096, 4095]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 11
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x1, .f32⟩
  | .hbm, ⟨5, _⟩ => ⟨S4096x4095, .f32⟩
  | .hbm, ⟨6, _⟩ => ⟨S4096x4096, .f32⟩
  | .hbm, ⟨7, _⟩ => ⟨S8192x4096, .bf16⟩
  | .hbm, ⟨8, _⟩ => ⟨S4096x4096, .bf16⟩
  | .hbm, ⟨9, _⟩ => ⟨S1x4096, .f32⟩
  | .hbm, ⟨10, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S4096x4096_S4096x1_0_4095 : S4096x4096.Slices ![0, 4095] S4096x1
  slices_S4096x4096_S4096x4095_0_0 : S4096x4096.Slices ![0, 0] S4096x4095
  concatenates_S4096x1_S4096x4095_S4096x4096_d1 : Shape.Concatenates [S4096x1, S4096x4095] S4096x4096 1
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v2) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x1 : Shape := ⟨2, ![4096, 1]⟩
abbrev S4096x4095 : Shape := ⟨2, ![4096, 4095]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x1, .f32⟩
  | .hbm, ⟨5, _⟩ => ⟨S4096x4095, .f32⟩
  | .hbm, ⟨6, _⟩ => ⟨S4096x4096, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  slices_S4096x4096_S4096x1_0_4095 : S4096x4096.Slices ![0, 4095] S4096x1
  slices_S4096x4096_S4096x4095_0_0 : S4096x4096.Slices ![0, 0] S4096x4095
  concatenates_S4096x1_S4096x4095_S4096x4096_d1 : Shape.Concatenates [S4096x1, S4096x4095] S4096x4096 1
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The function both programs compute.  With `rows` the matrix whose row `o` is the first row of the circulant matrix
  of `c o` (row `o` of `c` reversed, then rotated by one place), the result at batch row `b` and output `o` is
      y (b, o) = (∑ n, x (b, n) · rows (o, n)) + bias o
  on the extended reals.  Both programs build `rows` by the same host operations, so it stays a parameter here, and so
  does the bias as a function of the output coordinate: each side says how it reads its own bias array.
-/
import Idealize.ShloMosaic.PureOps.Ideal
import Idealize.ShloMosaic.Lib.ValueIdx

noncomputable section

namespace Cert.CirculantGemm

open Idealize.ShloMosaic Idealize.ShloMosaic.ValueIdx

/-- Row `b` of `x` against row `o` of `rows`, plus the bias of output `o`. -/
def gemmBias (x : (⟨2, ![8192, 4096]⟩ : Shape).Idx → EReal) (rows : (⟨2, ![4096, 4096]⟩ : Shape).Idx → EReal)
    (bias : Fin 4096 → EReal) : (⟨2, ![8192, 4096]⟩ : Shape).Idx → EReal :=
  fun i => (∑ n : Fin 4096, x (ix2 (i 0) n) * rows (ix2 (i 1) n)) + bias (i 1)

theorem gemmBias_apply (x : (⟨2, ![8192, 4096]⟩ : Shape).Idx → EReal) (rows : (⟨2, ![4096, 4096]⟩ : Shape).Idx → EReal)
    (bias : Fin 4096 → EReal) (b : Fin 8192) (o : Fin 4096) :
    gemmBias x rows bias (ix2 b o) = (∑ n : Fin 4096, x (ix2 b n) * rows (ix2 o n)) + bias o := rfl

end Cert.CirculantGemm

end
-- ==== Proof.KernelBlock.lean ====
/-
  One grid point of the kernel, as arithmetic.  The body multiplies a 1024 × 4096 block of `x` with a 512 × 4096 block
  of `rows`, contracting the LAST axis of both (so the second factor enters transposed), starting from a zero
  accumulator, and adds a 1 × 512 block of the bias to every row.  At entry `(p, q)` of the 1024 × 512 result this is
      (∑ n, xblk (p, n) · rblk (q, n)) + bblk (0, q).
-/
import proofs.«126935_j48713519071957_1_alg».proof.Proof.Gen.KernelIdeal.Skeleton
import proofs.«126935_j48713519071957_1_alg».proof.Proof.Spec
import Idealize.ShloMosaic.PureOps.Ideal.Laws
import Idealize.ShloMosaic.Lib.ValueIdx
import Idealize.ShloMosaic.Lib.Pipeline.Value

noncomputable section

namespace Cert.CirculantGemm.KernelBlock

open Cert.KernelIdeal Cert.KernelIdeal.Gen Idealize.ShloMosaic Idealize.ShloMosaic.ValueIdx

/-! ## The contraction's operand indices -/

/-- The left factor keeps the output's row. -/
theorem lhs_row (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
/-- Its column is the contraction coordinate. -/
theorem lhs_col (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
/-- The right factor's ROW is the output's column: it enters transposed. -/
theorem rhs_row (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
/-- Its column is the contraction coordinate too. -/
theorem rhs_col (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-! ## The product into zeros, at an entry -/

/-- Entry `(p, q)` of the block product is row `p` of the left block against row `q` of the right block. -/
theorem matmul_entry (a : FVec Ideal S1024x4096 .bf16) (b : FVec Ideal S512x4096 .bf16) (p : Fin 1024) (q : Fin 512) :
    matmul dot_S1024x4096_S512x4096_S1024x512_1_1_0_0_n_n none a b (constant (F := Ideal) S1024x512 .f32 0x00000000#32) (ix2 p q)
      = ∑ n : Fin 4096, a (ix2 p n) * b (ix2 q n) := by
  show FloatOps.matmul dot_S1024x4096_S512x4096_S1024x512_1_1_0_0_n_n none a b (constant (F := Ideal) S1024x512 .f32 0x00000000#32) (ix2 p q) = _
  rw [Ideal.matmul_constant_zero_apply, ← Equiv.sum_comp (contrEquiv1 dot_S1024x4096_S512x4096_S1024x512_1_1_0_0_n_n 4096 rfl rfl).symm]
  refine Finset.sum_congr rfl fun n _ => ?_
  have hn := contrEquiv1_symm_val dot_S1024x4096_S512x4096_S1024x512_1_1_0_0_n_n 4096 rfl rfl n
  have el : dot_S1024x4096_S512x4096_S1024x512_1_1_0_0_n_n.lhsIdx (ix2 p q) ((contrEquiv1 dot_S1024x4096_S512x4096_S1024x512_1_1_0_0_n_n 4096 rfl rfl).symm n) = ix2 p n := funext fun d => Fin.ext (by
    match d with
    | ⟨0, _⟩ => exact lhs_row _ _
    | ⟨1, _⟩ => exact (lhs_col _ _).trans hn)
  have er : dot_S1024x4096_S512x4096_S1024x512_1_1_0_0_n_n.rhsIdx (ix2 p q) ((contrEquiv1 dot_S1024x4096_S512x4096_S1024x512_1_1_0_0_n_n 4096 rfl rfl).symm n) = ix2 q n := funext fun d => Fin.ext (by
    match d with
    | ⟨0, _⟩ => exact rhs_row _ _
    | ⟨1, _⟩ => exact (rhs_col _ _).trans hn)
  rw [el, er]

/-! ## The bias row spread over the block's rows -/

/-- Every row of the broadcast is the one bias row. -/
theorem bias_entry (v : FVec Ideal S1x512 .f32) (p : Fin 1024) (q : Fin 512) :
    broadcastTo S1024x512 v broadcasts_S1x512_S1024x512 (ix2 p q) = v (ix2 0 q) :=
  broadcastTo_apply v broadcasts_S1x512_S1024x512 (ix2 p q) (ix2 0 q) (fun d => match d with
    | ⟨0, _⟩ => by show (0 : Nat) = if (1 : Nat) = 1 then 0 else _; rw [if_pos rfl]
    | ⟨1, _⟩ => by show q.val = if (512 : Nat) = 1 then 0 else q.val; rw [if_neg (by decide)])

/-! ## The body's stored value -/

/-- What the body stores, at entry `(p, q)` of the output block. -/
theorem stored_entry (x0 : Vec Ideal S1024x4096 .bf16) (x1 : Vec Ideal S512x4096 .bf16) (x2 : Vec Ideal S1x512 .f32)
    (p : Fin 1024) (q : Fin 512) :
    k0_pay1 (F := Ideal) x0 x1 x2 (ix2 p q) = (∑ n : Fin 4096, x0 (ix2 p n) * x1 (ix2 q n)) + x2 (ix2 0 q) := by
  unfold k0_pay1
  rw [addf_apply, shapeCast_self, shapeCast_self, shapeCast_self, shapeCast_self, matmul_entry, bias_entry]

/-! ## A block placed in the arrays -/

/-- If the three loaded blocks are the rows `row p` of `X`, the rows `col q` of `R` and the entries `col q` of the
    bias, then the stored block is the result `gemmBias X R B` at rows `row p` and columns `col q`: the contraction
    runs over the whole shared axis, so a block of the result needs nothing outside those rows of `X` and `R`. -/
theorem stored_entry_placed (X : (⟨2, ![8192, 4096]⟩ : Shape).Idx → EReal) (R : (⟨2, ![4096, 4096]⟩ : Shape).Idx → EReal)
    (B : Fin 4096 → EReal)
    (x0 : Vec Ideal S1024x4096 .bf16) (x1 : Vec Ideal S512x4096 .bf16) (x2 : Vec Ideal S1x512 .f32)
    (row : Fin 1024 → Fin 8192) (col : Fin 512 → Fin 4096)
    (h0 : ∀ (p : Fin 1024) (n : Fin 4096), x0 (ix2 p n) = X (ix2 (row p) n))
    (h1 : ∀ (q : Fin 512) (n : Fin 4096), x1 (ix2 q n) = R (ix2 (col q) n))
    (h2 : ∀ q : Fin 512, x2 (ix2 0 q) = B (col q))
    (p : Fin 1024) (q : Fin 512) :
    k0_pay1 (F := Ideal) x0 x1 x2 (ix2 p q) = gemmBias X R B (ix2 (row p) (col q)) := by
  rw [stored_entry, gemmBias_apply, h2]
  exact congrArg (· + B (col q)) (Finset.sum_congr rfl fun n _ => by rw [h0, h1])

end Cert.CirculantGemm.KernelBlock

end
-- ==== Proof.KernelArrays.lean ====
/-
  What the kernel region finds in the three arrays it stages, as functions of the program's arguments.  Before the
  region the host reverses each row of `c`, moves the last column to the front (two slices joined again: the first
  rows of the circulant matrices), changes `x` and that matrix to a narrower float format — which at the extended
  reals changes nothing — and views the bias vector as a 1 × 4096 matrix.
-/
import proofs.«126935_j48713519071957_1_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

noncomputable section

namespace Cert.CirculantGemm.KernelArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The first rows of the circulant matrices: each row of `c` reversed, its last entry then moved to the front. -/
def firstRows (cArr : (⟨S4096x4096, .f32⟩ : BufTy).Contents (Elt Ideal)) : (⟨S4096x4096, .f32⟩ : BufTy).Contents (Elt Ideal) :=
  concatenate S4096x4096 1 [⟨S4096x1, extractStridedSlice S4096x1 ![0, 4095] (Host.reverse [1] cArr) slices_S4096x4096_S4096x1_0_4095⟩, ⟨S4096x4095, extractStridedSlice S4096x4095 ![0, 0] (Host.reverse [1] cArr) slices_S4096x4096_S4096x4095_0_0⟩] concatenates_S4096x1_S4096x4095_S4096x4096_d1

/-- The left factor's array is `x`. -/
theorem lhs_array (c : Dev nD) : (V m c main_v2 : S8192x4096.Idx → EReal) = m ((c : Thread nD τ).loc main_arg0) := by
  dsimp only [Gen.V]
  simp only [Gen.hostOps0, Gen.hostOps0_1, Gen.hostOps0_2, List.flatten_cons, List.flatten_nil, List.append_nil, List.cons_append, List.nil_append]
  after_results
  rfl

/-- The right factor's array is the matrix of first rows. -/
theorem rhs_array (c : Dev nD) : (V m c main_v3 : S4096x4096.Idx → EReal) = firstRows (m ((c : Thread nD τ).loc main_arg1)) := by
  dsimp only [Gen.V]
  simp only [Gen.hostOps0, Gen.hostOps0_1, Gen.hostOps0_2, List.flatten_cons, List.flatten_nil, List.append_nil, List.cons_append, List.nil_append]
  after_results
  rfl

/-- The bias array is the bias vector laid out as one row. -/
theorem bias_array (c : Dev nD) : (V m c main_v4 : S1x4096.Idx → EReal) = shapeCast S1x4096 (m ((c : Thread nD τ).loc main_arg2)) shapeCasts_S4096_S1x4096 := by
  dsimp only [Gen.V]
  simp only [Gen.hostOps0, Gen.hostOps0_1, Gen.hostOps0_2, List.flatten_cons, List.flatten_nil, List.append_nil, List.cons_append, List.nil_append]
  after_results
  rfl

/-- Entry `(0, o)` of that row is entry `o` of the vector. -/
theorem bias_row_entry (b : S4096.Idx → EReal) (o : Fin 4096) :
    shapeCast S1x4096 b shapeCasts_S4096_S1x4096 (ix2 0 o) = b (ix1 o) :=
  shapeCast_apply b shapeCasts_S4096_S1x4096 (ix2 0 o) (ix1 o) (by
    rw [Shape.rowMajor_val_one, Shape.rowMajor_val_two]
    show o.val = 0 * 4096 + o.val
    omega)

end Cert.CirculantGemm.KernelArrays

end
-- ==== Proof.KernelValue.lean ====
/-
  The kernel's result array.  The grid is 8 × 8; point `(i, j)` reads rows `1024 i …` of `x`, rows `512 j …` of the
  matrix of first rows and entries `512 j …` of the bias, and writes the 1024 × 512 block at `(1024 i, 512 j)` of the
  result.  Each such block is the matching block of `gemmBias` of the whole arrays, and the 64 blocks tile the
  8192 × 4096 result, so the array ends at `gemmBias` of the arguments.
-/
import proofs.«126935_j48713519071957_1_alg».proof.Proof.Gen.KernelIdeal.Value
import proofs.«126935_j48713519071957_1_alg».proof.Proof.Spec
import proofs.«126935_j48713519071957_1_alg».proof.Proof.KernelBlock
import proofs.«126935_j48713519071957_1_alg».proof.Proof.KernelArrays

noncomputable section

namespace Cert.CirculantGemm.KernelValue

open Cert.KernelIdeal Cert.KernelIdeal.Gen Idealize.ShloMosaic Idealize.ShloMosaic.TcCoe Idealize.SL.Sem
open Idealize.ShloMosaic.ValueIdx Cert.CirculantGemm.KernelArrays
open Idealize.ShloMosaic.Pipeline (Dat)

variable (m : (ℓ : Loc nD τ sig) → Buf (Elt Ideal) ℓ) (ρ : Dev nD → PrngReg)

/-- The result over the arrays as the region finds them. -/
def regionResult (c : Dev nD) : S8192x4096.Idx → EReal :=
  gemmBias (V m c main_v2) (V m c main_v3) (fun o => V m c main_v4 (ix2 0 o))

/-- The result over the program's arguments. -/
def argResult (c : Dev nD) : S8192x4096.Idx → EReal :=
  gemmBias (m ((c : Thread nD τ).loc main_arg0)) (firstRows (m ((c : Thread nD τ).loc main_arg1)))
    (fun o => m ((c : Thread nD τ).loc main_arg2) (ix1 o))

/-- They are one array: the format changes are the identity and the bias row is the bias vector. -/
theorem regionResult_eq (c : Dev nD) : regionResult m c = argResult m c := by
  unfold regionResult argResult
  rw [lhs_array, rhs_array, bias_array]
  exact congrArg (gemmBias _ _) (funext fun o => bias_row_entry _ o)

theorem zero_offsets : (![0, 0] : Fin 2 → Nat) = fun _ => 0 := funext fun a => by fin_cases a <;> rfl

/-- Where each window's block sits at a grid point, against the output block's two block coordinates: the left
    factor follows the first, the right factor and the bias the second, and both stay below 8. -/
theorem block_places : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) < 8 ∧ win0_3.index t (1 : Fin 2) < 8 :=
  (by decide +kernel : ∀ t : Fin grid0.N, _)

/-- Every pair of block coordinates is some grid point's. -/
theorem block_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- What grid point `t` writes back is block `t` of the result. -/
theorem flushed_eq (c : Dev nD) (t : Fin cfg0.N) :
    (dats m 0 c).flushed 3 t = ((cfg0.win 3).blk t).view.read (Elt Ideal) (regionResult m c) := by
  rw [Cert.KernelIdeal.Value.flushed3]
  unfold out0_3
  rw [View.canon_unit_zero zero_offsets]
  simp only [View.ld_unit_zero (S := S1024x4096) zero_offsets, View.ld_unit_zero (S := S512x4096) zero_offsets,
    View.ld_unit_zero (S := S1x512) zero_offsets]
  obtain ⟨e0, e1, e2, e3, e4, e5, b0, b1⟩ := block_places t
  have key : ∀ j : S1024x512.Idx, k0_pay1 (F := Ideal) (iblk m c 0 t) (iblk m c 1 t) (iblk m c 2 t) j
      = regionResult m c (((cfg0.win 3).blk t).view.emb j) := by
    intro j
    obtain ⟨p, q, rfl⟩ : ∃ (p : Fin 1024) (q : Fin 512), j = ix2 p q := ⟨j 0, j 1, eq_ix2 j⟩
    refine (KernelBlock.stored_entry_placed (V m c main_v2) (V m c main_v3) (fun o => V m c main_v4 (ix2 0 o))
      (iblk m c 0 t) (iblk m c 1 t) (iblk m c 2 t)
      (fun p => ⟨win0_3.index t (0 : Fin 2) * 1024 + p.val, by have := p.isLt; omega⟩)
      (fun q => ⟨win0_3.index t (1 : Fin 2) * 512 + q.val, by have := q.isLt; omega⟩) ?_ ?_ ?_ p q).trans ?_
    · intro p n
      show V m c main_v2 (((cfg0.win 0).blk t).view.emb (ix2 p n)) = V m c main_v2 _
      refine congrArg _ (funext fun a => Fin.ext ?_)
      match a with
      | ⟨0, _⟩ => show win0_0.index t (0 : Fin 2) * 1024 + 1 * p.val = win0_3.index t (0 : Fin 2) * 1024 + p.val; omega
      | ⟨1, _⟩ => show win0_0.index t (1 : Fin 2) * 4096 + 1 * n.val = n.val; omega
    · intro q n
      show V m c main_v3 (((cfg0.win 1).blk t).view.emb (ix2 q n)) = V m c main_v3 _
      refine congrArg _ (funext fun a => Fin.ext ?_)
      match a with
      | ⟨0, _⟩ => show win0_1.index t (0 : Fin 2) * 512 + 1 * q.val = win0_3.index t (1 : Fin 2) * 512 + q.val; omega
      | ⟨1, _⟩ => show win0_1.index t (1 : Fin 2) * 4096 + 1 * n.val = n.val; omega
    · intro q
      show V m c main_v4 (((cfg0.win 2).blk t).view.emb (ix2 0 q)) = V m c main_v4 _
      refine congrArg _ (funext fun a => Fin.ext ?_)
      match a with
      | ⟨0, _⟩ => show win0_2.index t (0 : Fin 2) * 1 + 1 * 0 = 0; omega
      | ⟨1, _⟩ => show win0_2.index t (1 : Fin 2) * 512 + 1 * q.val = win0_3.index t (1 : Fin 2) * 512 + q.val; omega
    · unfold regionResult
      refine congrArg _ (funext fun a => Fin.ext ?_)
      match a with
      | ⟨0, _⟩ => show win0_3.index t (0 : Fin 2) * 1024 + p.val = win0_3.index t (0 : Fin 2) * 1024 + 1 * p.val; omega
      | ⟨1, _⟩ => show win0_3.index t (1 : Fin 2) * 512 + q.val = win0_3.index t (1 : Fin 2) * 512 + 1 * q.val; omega
  funext j
  exact key j

/-- An index of the result is in point `t`'s block iff each coordinate is in the block's range on its axis. -/
theorem mem_block (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v5).slice (win0_3.rect t)).set ↔ _
  rw [View.set_slice_whole, Rect.mem_set_unit]
  exact Iff.rfl

/-- The blocks tile the result: index `(r, s)` is in the block of the point with coordinates `(r / 1024, s / 512)`. -/
theorem blocks_cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := block_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The result array after the run. -/
theorem final (c : Dev nD) : (dats m 0 c).arrAt 3 cfg0.N = argResult m c :=
  ((dats m 0 c).arrAt_eq_of_cover 3 (regionResult m c) (fun t _ => flushed_eq m c t) blocks_cover).trans (regionResult_eq m c)

/-- The kernel's run: it ends with the result array at `gemmBias` of the arguments, the arguments as they were. -/
theorem run : θ_run defs (onTc (τ := τ) (main (F := Ideal))) ⟨m, fun _ => 0, ρ⟩ fun r => ∀ c : Dev nD,
      r.2.mem ((c : Thread nD τ).loc main_v5) = argResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.CirculantGemm.KernelValue

end
-- ==== Proof.ReferenceValue.lean ====
/-
  The reference's result array.  It forms the matrix of first rows by the same host operations, contracts `x` with
  it over the last axis of both, and adds the bias vector spread along the batch axis: index by index this is
  `gemmBias` of the arguments.
-/
import proofs.«126935_j48713519071957_1_alg».proof.Proof.Gen.ReferenceIdeal.Read
import proofs.«126935_j48713519071957_1_alg».proof.Proof.Spec

noncomputable section

namespace Cert.CirculantGemm.ReferenceValue

open Cert.ReferenceIdeal Cert.ReferenceIdeal.Gen Cert.ReferenceIdeal.Read Idealize.ShloMosaic Idealize.ShloMosaic.ValueIdx

/-- The contraction reads row `b` of `x` … -/
theorem left_index (i : S8192x4096.Idx) (n : Fin 4096) : lidx_main_v2 i n = ix2 (i 0) n :=
  funext fun a => Fin.ext (by match a with | ⟨0, _⟩ => rfl | ⟨1, _⟩ => rfl)
/-- … against row `o` of the matrix of first rows. -/
theorem right_index (i : S8192x4096.Idx) (n : Fin 4096) : ridx_main_v2 i n = ix2 (i 1) n :=
  funext fun a => Fin.ext (by match a with | ⟨0, _⟩ => rfl | ⟨1, _⟩ => rfl)
/-- The bias spread over the batch axis is read at the output coordinate. -/
theorem bias_index (i : S8192x4096.Idx) : idx_main_v3 (idx_main_v4 i) = ix1 (i 1) :=
  funext fun a => Fin.ext (by match a with | ⟨0, _⟩ => rfl)

/-- The reference's last stage is `gemmBias` of `x`, the matrix of first rows and the bias vector. -/
theorem result_eq (x : (⟨S8192x4096, .f32⟩ : BufTy).Contents (Elt Ideal)) (cArr : (⟨S4096x4096, .f32⟩ : BufTy).Contents (Elt Ideal))
    (b : (⟨S4096, .f32⟩ : BufTy).Contents (Elt Ideal)) :
    val_main_v5 (F := Ideal) x cArr b = gemmBias x (val_main_v1 (F := Ideal) cArr) (fun o => b (ix1 o)) := by
  funext i
  rw [val_main_v5_apply, val_main_v2_apply, val_main_v4_apply, val_main_v3_apply, bias_index]
  simp only [left_index, right_index]
  rfl

end Cert.CirculantGemm.ReferenceValue

end
-- ==== Proof.Equivalence.lean ====
/-
  The two idealized programs end with one result.  From memories that agree on `x`, `c` and the bias, the kernel's
  result array ends at `gemmBias` of `x`, the matrix of first rows of `c`'s circulants and the bias, and so does the
  reference's: the two sums are the same sum, term by term, so no property of the inputs is used.
-/
import proofs.«126935_j48713519071957_1_alg».proof.Defs
import proofs.«126935_j48713519071957_1_alg».proof.Proof.Gen.KernelIdeal
import proofs.«126935_j48713519071957_1_alg».proof.Proof.Gen.ReferenceIdeal
import proofs.«126935_j48713519071957_1_alg».proof.Proof.Gen.Pre_finite_inputs
import proofs.«126935_j48713519071957_1_alg».proof.Proof.KernelValue
import proofs.«126935_j48713519071957_1_alg».proof.Proof.ReferenceValue

noncomputable section

namespace Cert.CirculantGemm

open Idealize.ShloMosaic Idealize.ShloMosaic.TcCoe Idealize.SL.Sem

/-- Both programs name the same matrix of first rows: the same three host operations on `c`. -/
theorem firstRows_eq (cArr : (⟨Cert.ReferenceIdeal.S4096x4096, .f32⟩ : BufTy).Contents (Elt Ideal)) :
    Cert.ReferenceIdeal.Read.val_main_v1 (F := Ideal) cArr = KernelArrays.firstRows cArr := rfl

/-- The idealized kernel and the idealized reference, from memories agreeing on the arguments, both run and end with
    equal result arrays and unchanged arguments. -/
theorem algebraic : Cert.algebraic_KernelIdeal_ReferenceIdeal := by
  intro m ρ m' ρ' _ hagree
  refine ⟨fun c => KernelValue.argResult m c, KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, ReferenceValue.result_eq, firstRows_eq,
    (hagree c).1, (hagree c).2.1, (hagree c).2.2]
  rfl

end Cert.CirculantGemm

end
-- ==== Proof.lean ====
/- The proof of `Cert.Claim` (proofs.«126935_j48713519071957_1_alg».proof.Defs).
   The kernel is a dense product: with `rows` the matrix whose row `o` is the first row of the circulant matrix of
   `c o`, both programs compute  y (b, o) = (∑ n, x (b, n) · rows (o, n)) + bias o  on the extended reals
   (Proof/Spec.lean).  The kernel does it block by block over an 8 × 8 grid, each point one 1024 × 512 block of the
   result from whole rows of both factors (Proof/KernelBlock.lean: one point as arithmetic; Proof/KernelArrays.lean:
   what the host hands the region; Proof/KernelValue.lean: the blocks tile the result); the reference does it as one
   contraction on the host (Proof/ReferenceValue.lean); Proof/Equivalence.lean sets the two runs side by side.
   The three frames are the programs' generated runs, and the idealization rewrote nothing. -/
import proofs.«126935_j48713519071957_1_alg».proof.Defs
import proofs.«126935_j48713519071957_1_alg».proof.Proof.Gen.Kernel
import proofs.«126935_j48713519071957_1_alg».proof.Proof.Gen.Kernel.Skeleton
import proofs.«126935_j48713519071957_1_alg».proof.Proof.Gen.Kernel.Launch
import proofs.«126935_j48713519071957_1_alg».proof.Proof.Gen.Kernel.Points
import proofs.«126935_j48713519071957_1_alg».proof.Proof.Gen.Kernel.Frame
import proofs.«126935_j48713519071957_1_alg».proof.Proof.Gen.KernelIdeal
import proofs.«126935_j48713519071957_1_alg».proof.Proof.Gen.KernelIdeal.Skeleton
import proofs.«126935_j48713519071957_1_alg».proof.Proof.Gen.KernelIdeal.Launch
import proofs.«126935_j48713519071957_1_alg».proof.Proof.Gen.KernelIdeal.Points
import proofs.«126935_j48713519071957_1_alg».proof.Proof.Gen.KernelIdeal.Frame
import proofs.«126935_j48713519071957_1_alg».proof.Proof.Gen.ReferenceIdeal
import proofs.«126935_j48713519071957_1_alg».proof.Proof.Gen.Pre_finite_inputs
import proofs.«126935_j48713519071957_1_alg».proof.Proof.Gen.KernelIdeal.Value
import proofs.«126935_j48713519071957_1_alg».proof.Proof.Gen.ReferenceIdeal.Run
import proofs.«126935_j48713519071957_1_alg».proof.Proof.Gen.ReferenceIdeal.Read
import proofs.«126935_j48713519071957_1_alg».proof.Proof.Equivalence
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ
/-- So does the idealized kernel. -/
theorem frame_kernelIdeal : Cert.frame_KernelIdeal := fun m ρ _ => Cert.KernelIdeal.Gen.frame m ρ
/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.CirculantGemm.algebraic⟩

end Cert.Proof

end
